-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel

variable [Facts]

def fn {F : FTy → Type} [FloatOps F] (main_arg0 : FVec F S32x256x64x64 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  main_v3
-- ==== Kernel.lean ====
abbrev S32x256x64x64 : Shape := ⟨4, ![32, 256, 64, 64]⟩
abbrev S32x256x4096 : Shape := ⟨3, ![32, 256, 4096]⟩
abbrev S32x256x256 : Shape := ⟨3, ![32, 256, 256]⟩
abbrev S4x256x4096 : Shape := ⟨3, ![4, 256, 4096]⟩
abbrev S4x256x256 : Shape := ⟨3, ![4, 256, 256]⟩
abbrev S4x256 : Shape := ⟨2, ![4, 256]⟩
abbrev S4x256x1 : Shape := ⟨3, ![4, 256, 1]⟩

abbrev nBuf : Space → Nat
  | .hbm => 3
  | .vmem => 4
  | .smem => 0
  | _ => 0

abbrev bufTy : (tb : Table) → Fin (tcTables nBuf tb) → BufTy
  | .hbm, ⟨0, _⟩ => ⟨S32x256x64x64, .f32⟩
  | .hbm, ⟨1, _⟩ => ⟨S32x256x4096, .f32⟩
  | .hbm, ⟨2, _⟩ => ⟨S32x256x256, .f32⟩
  | .local _ .vmem, ⟨0, _⟩ => ⟨S4x256x4096, .f32⟩
  | .local _ .vmem, ⟨1, _⟩ => ⟨S4x256x4096, .f32⟩
  | .local _ .vmem, ⟨2, _⟩ => ⟨S4x256x256, .f32⟩
  | .local _ .vmem, ⟨3, _⟩ => ⟨S4x256x256, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x256x64x64_S32x256x4096 : S32x256x64x64.ShapeCasts S32x256x4096
  inb_S4x256x4096_S4x256x4096_0_0_0 : ∀ a, (![0, 0, 0] : Fin 3 → Nat) a + S4x256x4096.size a ≤ S4x256x4096.size a
  h_S4x256x4096 : 0 < S4x256x4096.numel
  shapeCasts_S4x256x4096_S4x256x4096 : S4x256x4096.ShapeCasts S4x256x4096
  reduces_S4x256x4096_S4x256 : S4x256x4096.Reduces [2] S4x256
  shapeCasts_S4x256_S4x256x1 : S4x256.ShapeCasts S4x256x1
  broadcasts_S4x256x1_S4x256x4096 : S4x256x1.Broadcasts S4x256x4096
  inb_S4x256x256_S4x256x256_0_0_0 : ∀ a, (![0, 0, 0] : Fin 3 → Nat) a + S4x256x256.size a ≤ S4x256x256.size a
  h_S4x256x256 : 0 < S4x256x256.numel
  dot_S4x256x4096_S4x256x4096_S4x256x256_2_2_1_1_0_0_wf : DotDims.WF S4x256x4096 S4x256x4096 S4x256x256 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x4096.size a ≤ S32x256x4096.size a
  hwx0_0 : ∀ i : grid0.Coords, EltTy.bits .f32 = 32 ∨ (Rect.block (s := S32x256x4096) S4x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x256x256.size a ≤ S32x256x256.size a
  hwx0_1 : ∀ i : grid0.Coords, EltTy.bits .f32 = 32 ∨ (Rect.block (s := S32x256x256) S4x256x256.size (cc0_transform_1 i) (hinb0_1 i)).WholeWords (EltTy.packing .f32)

variable [Facts₀]

def dot_S4x256x4096_S4x256x4096_S4x256x256_2_2_1_1_0_0 : DotDims S4x256x4096 S4x256x4096 S4x256x256 where
  lhsContracting := [2]
  rhsContracting := [2]
  lhsNonContracting := [1]
  rhsNonContracting := [1]
  lhsBatch := [0]
  rhsBatch := [0]
  wf := dot_S4x256x4096_S4x256x4096_S4x256x256_2_2_1_1_0_0_wf

abbrev win0_0 : Pipeline.Window sig grid0 :=
  Pipeline.Window.ofSpec (Memref.whole main_v0) S4x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x256x64x64 : Shape := ⟨4, ![32, 256, 64, 64]⟩
abbrev S32x256x4096 : Shape := ⟨3, ![32, 256, 4096]⟩
abbrev S32x4096x256 : Shape := ⟨3, ![32, 4096, 256]⟩
abbrev S_ : Shape := ⟨0, ![]⟩
abbrev S32x256 : Shape := ⟨2, ![32, 256]⟩
abbrev S32x1x256 : Shape := ⟨3, ![32, 1, 256]⟩
abbrev S32x256x256 : Shape := ⟨3, ![32, 256, 256]⟩

abbrev nBuf : Space → Nat
  | .hbm => 15
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S32x256x4096, .f32⟩
  | .hbm, ⟨2, _⟩ => ⟨S32x4096x256, .f32⟩
  | .hbm, ⟨3, _⟩ => ⟨S_, .f32⟩
  | .hbm, ⟨4, _⟩ => ⟨S32x256, .f32⟩
  | .hbm, ⟨5, _⟩ => ⟨S32x1x256, .f32⟩
  | .hbm, ⟨6, _⟩ => ⟨S_, .f32⟩
  | .hbm, ⟨7, _⟩ => ⟨S32x1x256, .f32⟩
  | .hbm, ⟨8, _⟩ => ⟨S32x1x256, .f32⟩
  | .hbm, ⟨9, _⟩ => ⟨S32x4096x256, .f32⟩
  | .hbm, ⟨10, _⟩ => ⟨S32x4096x256, .f32⟩
  | .hbm, ⟨11, _⟩ => ⟨S32x256x256, .f32⟩
  | .hbm, ⟨12, _⟩ => ⟨S_, .f32⟩
  | .hbm, ⟨13, _⟩ => ⟨S32x256x256, .f32⟩
  | .hbm, ⟨14, _⟩ => ⟨S32x256x256, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  shapeCasts_S32x256x64x64_S32x256x4096 : S32x256x64x64.ShapeCasts S32x256x4096
  transposes_S32x256x4096_S32x4096x256_0_2_1 : S32x256x4096.Transposes [0, 2, 1] S32x4096x256
  reducesTo_S32x4096x256_S32x256_d1 : S32x4096x256.ReducesTo [1] S32x256
  h_S_ : 0 < S_.numel
  bcast_S32x256_S32x1x256_0_2 : S32x256.BroadcastsInDim S32x1x256 (![0, 2] : Fin 2 → Fin S32x1x256.rank)
  bcast_S_S32x1x256 : S_.BroadcastsInDim S32x1x256 (![] : Fin 0 → Fin S32x1x256.rank)
  bcast_S32x1x256_S32x4096x256_0_1_2 : S32x1x256.BroadcastsInDim S32x4096x256 (![0, 1, 2] : Fin 3 → Fin S32x4096x256.rank)
  bcast_S_S32x256x256 : S_.BroadcastsInDim S32x256x256 (![] : Fin 0 → Fin S32x256x256.rank)
  dot_S32x4096x256_S32x4096x256_S32x256x256_1_1_2_2_0_0_wf : DotDims.WF S32x4096x256 S32x4096x256 S32x256x256 [1] [1] [2] [2] [0] [0]

variable [Facts₀]

def dot_S32x4096x256_S32x4096x256_S32x256x256_1_1_2_2_0_0 : DotDims S32x4096x256 S32x4096x256 S32x256x256 where
  lhsContracting := [1]
  rhsContracting := [1]
  lhsNonContracting := [2]
  rhsNonContracting := [2]
  lhsBatch := [0]
  rhsBatch := [0]
  wf := dot_S32x4096x256_S32x4096x256_S32x256x256_1_1_2_2_0_0_wf

class Facts : Prop extends Facts₀ where

variable [Facts]
-- ==== Proof.CovSpec.lean ====
/-
  The function both programs compute, written once over plain rows.

  The input is read as 32 batches of 256 channels, each channel a row of 4096 positions. For two rows `r` and `s`
  the value is the unbiased sample covariance

      ( sum over n of (r n - mean r) * (s n - mean s) ) / 4095,      mean r = (sum over k of r k) / 4096,

  on the extended reals, the two divisors being the values of the float words `0x457FF000` (4095.0) and `0x45800000`
  (4096.0). The result array holds, at batch `b` and channels `(d, e)`, that value for rows `d` and `e` of batch `b`.
  Nothing here needs the entries to be finite: both programs apply the same operations to the same entries, and only
  the order of the summation differs, which a commutative sum does not see.
-/
import Idealize.ShloMosaic.PureOps.Ideal
import Idealize.ShloMosaic.Lib.ValueIdx

noncomputable section

open scoped BigOperators

namespace Cert.Cov

open Idealize.ShloMosaic Idealize.ShloMosaic.ValueIdx

/-- The mean of one channel's row: its sum divided by the number of positions, 4096. -/
def rowMean (r : Fin 4096 → EReal) : EReal :=
  Ideal.div (∑ k : Fin 4096, r k) (Ideal.ofBits .f32 0x45800000#32)

/-- The unbiased covariance of two rows: the sum of the products of the centred entries, divided by 4095. -/
def covAt (r s : Fin 4096 → EReal) : EReal :=
  Ideal.div (∑ n : Fin 4096, (r n - rowMean r) * (s n - rowMean s)) (Ideal.ofBits .f32 0x457FF000#32)

/-- The covariance array of a `[32, 256, 4096]` array: at `(b, d, e)` the covariance of rows `d` and `e` of batch `b`. -/
def covArr (a : (⟨3, ![32, 256, 4096]⟩ : Shape).Idx → EReal) : (⟨3, ![32, 256, 256]⟩ : Shape).Idx → EReal :=
  fun i => covAt (fun n => a (ix3 (n0 := 32) (n1 := 256) (n2 := 4096) (i 0) (i 1) n))
    (fun n => a (ix3 (n0 := 32) (n1 := 256) (n2 := 4096) (i 0) (i 2) n))

/-- The array at explicit coordinates. -/
theorem covArr_ix3 (a : (⟨3, ![32, 256, 4096]⟩ : Shape).Idx → EReal) (b : Fin 32) (d e : Fin 256) :
    covArr a (ix3 b d e) = covAt (fun n => a (ix3 b d n)) (fun n => a (ix3 b e n)) := rfl

end Cert.Cov

end
-- ==== Proof.KeepDim3.lean ====
/-
  The keep-dimension forms of rank 3, read at an index: an `[a, b]` array reshaped to `[a, b, 1]` holds at
  `(p, d, u)` the entry `(p, d)`, whatever the unit coordinate `u`; and an `[a, b, 1]` array broadcast along its last
  axis to `[a, b, c]` holds at `(p, d, n)` the entry `(p, d, 0)`, whatever `n`. For every extent and element type.
-/
import Idealize.ShloMosaic.Lib.Pipeline.Value
import Idealize.ShloMosaic.Lib.ValueIdx

namespace Cert.KeepDim3

open Idealize.ShloMosaic Idealize.ShloMosaic.ValueIdx

variable {α : Type}

/-- A trailing unit axis added by a reshape: row-major positions agree because the new axis has one coordinate. -/
theorem shapeCast_ab_ab1_apply {a b : ℕ} (x : (⟨2, ![a, b]⟩ : Shape).Idx → α)
    (h : (⟨2, ![a, b]⟩ : Shape).ShapeCasts ⟨3, ![a, b, 1]⟩) (p : Fin a) (d : Fin b) (u : Fin 1) :
    shapeCast ⟨3, ![a, b, 1]⟩ x h (ix3 p d u) = x (ix2 p d) :=
  shapeCast_apply x h _ _ (by
    have hu : u.val = 0 := by omega
    rw [Shape.rowMajor_val_two, Shape.rowMajor_val_three]
    show p.val * b + d.val = (p.val * b + d.val) * 1 + u.val
    rw [hu, Nat.mul_one, Nat.add_zero])

/-- A trailing unit axis broadcast to `c` positions: every position reads the one entry of its row. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (d : Fin b) (n : Fin c) :
    broadcastTo ⟨3, ![a, b, c]⟩ v h (ix3 p d n) = v (ix3 p d (0 : Fin 1)) := by
  refine broadcastTo_apply v h (ix3 p d n) (ix3 p d (0 : Fin 1)) fun ax => ?_
  match ax with
  | ⟨0, _⟩ =>
    show p.val = if a = 1 then 0 else p.val
    split
    · have := p.isLt; omega
    · rfl
  | ⟨1, _⟩ =>
    show d.val = if b = 1 then 0 else d.val
    split
    · have := d.isLt; omega
    · rfl
  | ⟨2, _⟩ => rfl

end Cert.KeepDim3
-- ==== Proof.BlockValue.lean ====
/-
  What the kernel body computes from one loaded block, read at an index.

  The body takes a block `x` of 4 batches (`[4, 256, 4096]`), sums every row over its 4096 positions, divides by 4096
  to get the row means, subtracts each row's mean from the row (the centred block), multiplies the centred block with
  itself batch by batch contracting the position axis (a Gram matrix per batch), and divides by 4095. Read at
  `(p, d, e)` this is the covariance of rows `d` and `e` of batch `p` of the block: `Cov.covAt`.
-/
import proofs.«134029_j25031069401649_1_alg».proof.Proof.Gen.KernelIdeal.Skeleton
import proofs.«134029_j25031069401649_1_alg».proof.Proof.CovSpec
import proofs.«134029_j25031069401649_1_alg».proof.Proof.KeepDim3
import Idealize.ShloMosaic.PureOps.Ideal.Laws
import Idealize.ShloMosaic.Lib.Pipeline.Value
import Idealize.ShloMosaic.Lib.ValueIdx

noncomputable section

open scoped BigOperators

namespace Cert.KernelIdeal.BlockValue

open Cert.KernelIdeal Cert.KernelIdeal.Gen Idealize.ShloMosaic Idealize.ShloMosaic.ValueIdx Cert.Cov

/-- The batched product's dimension numbers: batch axis 0 of both operands, rows (axis 1) kept from each operand,
    positions (axis 2) contracted. -/
abbrev gramDims : DotDims S4x256x4096 S4x256x4096 S4x256x256 := dot_S4x256x4096_S4x256x4096_S4x256x256_2_2_1_1_0_0

/-! ## The row sums -/

/-- The lane reduction at row `(p, d)` is the sum of that row's 4096 entries. -/
theorem rowSum_apply (x : FVec Ideal S4x256x4096 .f32) (h : S4x256x4096.Reduces [2] S4x256) (hφ : FKind.Formats .f32)
    (hacc : (0x00000000#32 : BitVec 32) = FKind.add.neutral .f32 hφ) (p : Fin 4) (d : Fin 256) :
    multiReduction .add [2] S4x256 x 0x00000000#32 h hφ hacc (ix2 p d) = ∑ k : Fin 4096, x (ix3 p d k) := by
  refine (Ideal.multiReduction_add_single x _ h hφ hacc (ix2 p d)).trans ?_
  refine Finset.sum_congr rfl fun k _ => ?_
  exact congrArg x (funext fun a => Fin.ext (by match a with | ⟨0, _⟩ => rfl | ⟨1, _⟩ => rfl | ⟨2, _⟩ => rfl))

/-! ## The centred block -/

/-- The block with each row's mean subtracted from the row, as the body spells it: the row sums, reshaped to a
    column, divided by 4096, broadcast back along the positions, and subtracted. -/
def centred (x : FVec Ideal S4x256x4096 .f32) : FVec Ideal S4x256x4096 .f32 :=
  subf x (broadcastTo S4x256x4096
    (divf (shapeCast S4x256x1 (multiReduction .add [2] S4x256 x 0x00000000#32 reduces_S4x256x4096_S4x256 (.inl rfl) rfl)
        shapeCasts_S4x256_S4x256x1)
      (broadcast S4x256x1 (Scalar.ofBits .f32 0x45800000#32)))
    broadcasts_S4x256x1_S4x256x4096)

/-- At `(p, d, n)` the centred block holds the entry minus the mean of its row. -/
theorem centred_apply (x : FVec Ideal S4x256x4096 .f32) (p : Fin 4) (d : Fin 256) (n : Fin 4096) :
    centred x (ix3 p d n) = x (ix3 p d n) - rowMean (fun k => x (ix3 p d k)) := by
  unfold centred
  show x (ix3 p d n) - broadcastTo S4x256x4096 _ broadcasts_S4x256x1_S4x256x4096 (ix3 p d n) = _
  refine congrArg (x (ix3 p d n) - ·) ?_
  refine (Cert.KeepDim3.broadcastTo_ab1_abc_apply _ _ p d n).trans ?_
  show Ideal.div (shapeCast S4x256x1 _ shapeCasts_S4x256_S4x256x1 (ix3 p d (0 : Fin 1))) (Ideal.ofBits .f32 0x45800000#32) = _
  unfold rowMean
  refine congrArg (Ideal.div · _) ?_
  refine (Cert.KeepDim3.shapeCast_ab_ab1_apply _ _ p d 0).trans ?_
  exact rowSum_apply x _ _ _ p d

/-! ## The Gram matrix of a block -/

theorem lhs_axis0 (i : S4x256x256.Idx) (q : gramDims.contr.Idx) : (gramDims.lhsIdx i q 0).val = (i 0).val := by
  unfold DotDims.lhsIdx
  rw [dif_pos (show (0 : Fin S4x256x4096.rank) ∈ gramDims.lhsBatch by decide)]
  rfl
theorem lhs_axis1 (i : S4x256x256.Idx) (q : gramDims.contr.Idx) : (gramDims.lhsIdx i q 1).val = (i 1).val := by
  unfold DotDims.lhsIdx
  rw [dif_neg (show ¬(1 : Fin S4x256x4096.rank) ∈ gramDims.lhsBatch by decide),
    dif_pos (show (1 : Fin S4x256x4096.rank) ∈ gramDims.lhsNonContracting by decide)]
  rfl
theorem lhs_axis2 (i : S4x256x256.Idx) (q : gramDims.contr.Idx) :
    (gramDims.lhsIdx i q 2).val = (q ⟨0, by decide⟩).val :=
  gramDims.lhsIdx_val_of_single rfl i q
theorem rhs_axis0 (i : S4x256x256.Idx) (q : gramDims.contr.Idx) : (gramDims.rhsIdx i q 0).val = (i 0).val := by
  unfold DotDims.rhsIdx
  rw [dif_pos (show (0 : Fin S4x256x4096.rank) ∈ gramDims.rhsBatch by decide)]
  rfl
theorem rhs_axis1 (i : S4x256x256.Idx) (q : gramDims.contr.Idx) : (gramDims.rhsIdx i q 1).val = (i 2).val := by
  unfold DotDims.rhsIdx
  rw [dif_neg (show ¬(1 : Fin S4x256x4096.rank) ∈ gramDims.rhsBatch by decide),
    dif_pos (show (1 : Fin S4x256x4096.rank) ∈ gramDims.rhsNonContracting by decide)]
  rfl
theorem rhs_axis2 (i : S4x256x256.Idx) (q : gramDims.contr.Idx) :
    (gramDims.rhsIdx i q 2).val = (q ⟨0, by decide⟩).val :=
  gramDims.rhsIdx_val_of_single rfl i q

/-- The batched product of a block with itself, accumulated into zero, at `(p, d, e)`: the sum over the positions of
    the products of rows `d` and `e` of batch `p`. -/
theorem gram_apply (y : FVec Ideal S4x256x4096 .f32) (p : Fin 4) (d e : Fin 256) :
    matmul gramDims none y y (constant S4x256x256 .f32 0x00000000#32) (ix3 p d e)
      = ∑ n : Fin 4096, y (ix3 p d n) * y (ix3 p e n) := by
  simp only [matmul]
  rw [Ideal.matmul_constant_zero_apply, ← Equiv.sum_comp (contrEquiv1 gramDims 4096 rfl rfl).symm]
  refine Finset.sum_congr rfl fun k _ => ?_
  have hk := contrEquiv1_symm_val gramDims 4096 rfl rfl k
  have el : gramDims.lhsIdx (ix3 p d e) ((contrEquiv1 gramDims 4096 rfl rfl).symm k) = ix3 p d k :=
    funext fun a => Fin.ext (by
      match a with
      | ⟨0, _⟩ => exact lhs_axis0 _ _
      | ⟨1, _⟩ => exact lhs_axis1 _ _
      | ⟨2, _⟩ => exact (lhs_axis2 _ _).trans hk)
  have er : gramDims.rhsIdx (ix3 p d e) ((contrEquiv1 gramDims 4096 rfl rfl).symm k) = ix3 p e k :=
    funext fun a => Fin.ext (by
      match a with
      | ⟨0, _⟩ => exact rhs_axis0 _ _
      | ⟨1, _⟩ => exact rhs_axis1 _ _
      | ⟨2, _⟩ => exact (rhs_axis2 _ _).trans hk)
  rw [el, er]

/-! ## The stored value -/

/-- The body's stored value is the Gram matrix of the centred block divided by 4095 (the identity reshape of the
    loaded block dropped). -/
theorem pay_eq (x0 : Vec Ideal S4x256x4096 .f32) :
    k0_pay1 (F := Ideal) x0
      = divf (matmul gramDims none (centred x0) (centred x0) (constant S4x256x256 .f32 0x00000000#32))
          (broadcast S4x256x256 (Scalar.ofBits .f32 0x457FF000#32)) := by
  unfold k0_pay1 centred
  simp only [shapeCast_self]

/-- At `(p, d, e)` the stored value is the covariance of rows `d` and `e` of batch `p` of the loaded block. -/
theorem pay_apply (x0 : Vec Ideal S4x256x4096 .f32) (p : Fin 4) (d e : Fin 256) :
    k0_pay1 (F := Ideal) x0 (ix3 p d e) = covAt (fun n => x0 (ix3 p d n)) (fun n => x0 (ix3 p e n)) := by
  rw [pay_eq]
  show Ideal.div (matmul gramDims none (centred x0) (centred x0) (constant S4x256x256 .f32 0x00000000#32) (ix3 p d e))
    (Ideal.ofBits .f32 0x457FF000#32) = _
  unfold covAt
  refine congrArg (Ideal.div · _) ?_
  refine (gram_apply (centred x0) p d e).trans ?_
  exact Finset.sum_congr rfl fun n _ => by rw [centred_apply, centred_apply]

end Cert.KernelIdeal.BlockValue

end
-- ==== Proof.ArrValue.lean ====
/-
  From the blocks to the result array.

  The grid has 8 points; point `t` loads batches `4t … 4t+3` of the reshaped input (all channels, all positions) and
  writes back batches `4t … 4t+3` of the result (all channel pairs). A covariance entry `(b, d, e)` depends only on
  rows `d` and `e` of batch `b`, and batch `b = 4t + p` of the array is batch `p` of the block loaded at `t`, so what
  point `t` writes back is block `t` of the covariance array of the whole reshaped input. The 8 blocks tile the result,
  so the result array ends holding that covariance array. The reshaped input is the host reshape of the argument.
-/
import proofs.«134029_j25031069401649_1_alg».proof.Proof.Gen.KernelIdeal.Value
import proofs.«134029_j25031069401649_1_alg».proof.Proof.BlockValue
import Idealize.ShloMosaic.Lib.Pipeline.Value
import Idealize.ShloMosaic.Lib.StableHlo.Run
import Idealize.ShloMosaic.Lib.ValueIdx

set_option maxRecDepth 16384

noncomputable section

namespace Cert.KernelIdeal.ArrValue

open Cert.KernelIdeal Cert.KernelIdeal.Gen Idealize.ShloMosaic Idealize.ShloMosaic.TcCoe Idealize.SL.Sem
open Idealize.ShloMosaic.Pipeline (Dat)
open Idealize.ShloMosaic.ValueIdx Cert.Cov

variable (m : (ℓ : Loc nD τ sig) → Buf (Elt Ideal) ℓ) (ρ : Dev nD → PrngReg)

theorem origin_zero : (![0, 0, 0] : Fin 3 → Nat) = fun _ => 0 := funext fun a => by fin_cases a <;> rfl

/-- The printed index maps over the grid: both windows' block index is the point on the batch axis and zero on
    the other two. -/
theorem idx_facts : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0 :=
  (by decide +kernel : ∀ t : Fin grid0.N, _)

/-- Every batch group of four is some point's output block. -/
theorem idx_onto : ∀ q : Fin 8, ∃ t : Fin cfg0.N, win0_1.index t = ![q.val, 0, 0] :=
  (by decide +kernel : ∀ q : Fin 8, ∃ t : Fin grid0.N, win0_1.index t = ![q.val, 0, 0])

/-- A block `x0` that holds batches `o … o+3` of an array `a` has, at `j`, the covariance entry of `a` at `j` moved
    `o` batches along. -/
theorem block_cov (x0 : Vec Ideal S4x256x4096 .f32) (a : S32x256x4096.Idx → EReal) (o : Nat)
    (j : S4x256x256.Idx) (i : S32x256x256.Idx)
    (hx : ∀ (y : S4x256x4096.Idx) (y' : S32x256x4096.Idx), (y' 0).val = o + (y 0).val → (y' 1).val = (y 1).val →
      (y' 2).val = (y 2).val → x0 y = a y')
    (hi0 : (i 0).val = o + (j 0).val) (hi1 : (i 1).val = (j 1).val) (hi2 : (i 2).val = (j 2).val) :
    k0_pay1 (F := Ideal) x0 j = covArr a i := by
  obtain ⟨p, d, e, rfl⟩ : ∃ (p : Fin 4) (d e : Fin 256), j = ix3 p d e := ⟨j 0, j 1, j 2, eq_ix3 j⟩
  rw [BlockValue.pay_apply]
  unfold covArr
  have hd : (fun n => x0 (ix3 p d n)) = fun n => a (ix3 (n0 := 32) (n1 := 256) (n2 := 4096) (i 0) (i 1) n) :=
    funext fun n => hx _ _ hi0 hi1 rfl
  have he : (fun n => x0 (ix3 p e n)) = fun n => a (ix3 (n0 := 32) (n1 := 256) (n2 := 4096) (i 0) (i 2) n) :=
    funext fun n => hx _ _ hi0 hi2 rfl
  rw [hd, he]

/-- What point `t` writes back is block `t` of the covariance array of the reshaped input as the region finds it. -/
theorem flushed_eq (c : Dev nD) (t : Fin cfg0.N) :
    (dats m 0 c).flushed 1 t = ((cfg0.win 1).blk t).view.read (Elt Ideal) (covArr (V m c main_v0)) := by
  rw [Cert.KernelIdeal.Value.flushed1]
  unfold out0_1
  rw [View.canon_unit_zero origin_zero]
  simp only [View.ld_unit_zero (S := S4x256x4096) origin_zero]
  obtain ⟨e0, e1, e2, e3, e4⟩ := idx_facts t
  funext j
  show k0_pay1 (F := Ideal) (iblk m c 0 t) j = covArr (V m c main_v0) (((cfg0.win 1).blk t).view.emb j)
  refine block_cov (iblk m c 0 t) (V m c main_v0) (win0_1.index t (0 : Fin 3) * 4) j _ (fun y y' h0 h1 h2 => ?_) ?_ ?_ ?_
  · show V m c main_v0 (((cfg0.win 0).blk t).view.emb y) = V m c main_v0 y'
    refine congrArg _ (funext fun ax => Fin.ext ?_)
    match ax with
    | ⟨0, _⟩ => show win0_0.index t (0 : Fin 3) * 4 + 1 * (y 0).val = (y' 0).val; omega
    | ⟨1, _⟩ => show win0_0.index t (1 : Fin 3) * 256 + 1 * (y 1).val = (y' 1).val; omega
    | ⟨2, _⟩ => show win0_0.index t (2 : Fin 3) * 4096 + 1 * (y 2).val = (y' 2).val; omega
  · show win0_1.index t (0 : Fin 3) * 4 + 1 * (j 0).val = win0_1.index t (0 : Fin 3) * 4 + (j 0).val; omega
  · show win0_1.index t (1 : Fin 3) * 256 + 1 * (j 1).val = (j 1).val; omega
  · show win0_1.index t (2 : Fin 3) * 256 + 1 * (j 2).val = (j 2).val; omega

/-- An index of the result is in point `t`'s block iff each coordinate is in the block's range on its axis. -/
theorem mem_blk (t : Fin cfg0.N) (i : S32x256x256.Idx) :
    i ∈ ((cfg0.win 1).blk t).view.set ↔ ∀ a : Fin 3, win0_1.index t a * S4x256x256.size a ≤ (i a).val
      ∧ (i a).val < win0_1.index t a * S4x256x256.size a + S4x256x256.size a := by
  show i ∈ ((View.whole main_v1).slice (win0_1.rect t)).set ↔ _
  rw [View.set_slice_whole, Rect.mem_set_unit]
  exact Iff.rfl

/-- Every index of the result is in some point's block: batch `b` is written at point `b / 4`. -/
theorem cover (i : S32x256x256.Idx) :
    ∃ t : Fin cfg0.N, (cfg0.win 1).flush t = true ∧ i ∈ ((cfg0.win 1).blk t).view.set := by
  have hi0 : (i 0).val < 32 := (i 0).isLt
  have hi1 : (i 1).val < 256 := (i 1).isLt
  have hi2 : (i 2).val < 256 := (i 2).isLt
  obtain ⟨t, ht⟩ := idx_onto ⟨(i 0).val / 4, by omega⟩
  have q0 : win0_1.index t (0 : Fin 3) = (i 0).val / 4 := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 4 ≤ (i 0).val ∧ (i 0).val < win0_1.index t (0 : Fin 3) * 4 + 4; omega
  | ⟨1, _⟩ => show win0_1.index t (1 : Fin 3) * 256 ≤ (i 1).val ∧ (i 1).val < win0_1.index t (1 : Fin 3) * 256 + 256; omega
  | ⟨2, _⟩ => show win0_1.index t (2 : Fin 3) * 256 ≤ (i 2).val ∧ (i 2).val < win0_1.index t (2 : Fin 3) * 256 + 256; omega

/-- The result array after the run is the covariance array of the reshaped input as the region finds it. -/
theorem final (c : Dev nD) : (dats m 0 c).arrAt 1 cfg0.N = covArr (V m c main_v0) :=
  (dats m 0 c).arrAt_eq_of_cover 1 (covArr (V m c main_v0)) (fun t _ => flushed_eq m c t) cover

/-- The region finds in `main_v0` the host's reshape of the argument. -/
theorem V_main_v0 (c : Dev nD) :
    (V m c main_v0 : S32x256x4096.Idx → EReal)
      = shapeCast S32x256x4096 (m ((c : Thread nD τ).loc main_arg0)) shapeCasts_S32x256x64x64_S32x256x4096 := by
  dsimp only [Gen.V, Gen.hostOps0]
  after_results
  rfl

/-- The run, read: the result array ends at the covariance array of the reshaped argument, the argument unchanged. -/
theorem run : θ_run defs (onTc (τ := τ) (main (F := Ideal))) ⟨m, fun _ => 0, ρ⟩ fun r => ∀ c : Dev nD,
      r.2.mem ((c : Thread nD τ).loc main_v1)
        = covArr (shapeCast S32x256x4096 (m ((c : Thread nD τ).loc main_arg0)) shapeCasts_S32x256x64x64_S32x256x4096)
      ∧ r.2.mem ((c : Thread nD τ).loc main_arg0) = m ((c : Thread nD τ).loc main_arg0) :=
  (θ_run defs _ _).mono (fun r h c => ⟨(h c).1.trans ((final m c).trans (congrArg covArr (V_main_v0 m c))), (h c).2⟩)
    (Cert.KernelIdeal.Value.run_blocks m ρ)

end Cert.KernelIdeal.ArrValue

end
-- ==== Proof.RefValue.lean ====
/-
  The reference's result is the covariance array of the reshaped input.

  The reference reshapes the input to `[32, 256, 4096]` (batch, channel, position), swaps the last two axes, sums over
  the positions (from the initial value zero), divides by 4096, subtracts, contracts the position axis of the centred
  array with itself batch by batch, and divides by 4095. Read at `(b, d, e)`, with the swap undone at every read, this
  is the covariance of rows `d` and `e` of batch `b` of the reshaped input: `Cov.covArr`.
-/
import proofs.«134029_j25031069401649_1_alg».proof.Proof.Gen.ReferenceIdeal.Read
import proofs.«134029_j25031069401649_1_alg».proof.Proof.CovSpec
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read Idealize.ShloMosaic
open Idealize.ShloMosaic.ValueIdx Cert.Cov

/-- The result at an index. -/
theorem result_eq (x0 : (⟨S32x256x64x64, .f32⟩ : BufTy).Contents (Elt Ideal)) :
    val_main_v10 (F := Ideal) x0 = covArr (val_main_v0 (F := Ideal) x0) := by
  funext i
  -- the indices the chain of reads composes, as coordinates of the reshaped array
  have eL : ∀ k : Fin 4096, idx_main_v1 (lidx_main_v8 i k) = ix3 (n0 := 32) (n1 := 256) (n2 := 4096) (i 0) (i 1) k :=
    fun k => funext fun a => Fin.ext (by match a with | ⟨0, _⟩ => rfl | ⟨1, _⟩ => rfl | ⟨2, _⟩ => rfl)
  have eR : ∀ k : Fin 4096, idx_main_v1 (ridx_main_v8 i k) = ix3 (n0 := 32) (n1 := 256) (n2 := 4096) (i 0) (i 2) k :=
    fun k => funext fun a => Fin.ext (by match a with | ⟨0, _⟩ => rfl | ⟨1, _⟩ => rfl | ⟨2, _⟩ => rfl)
  have eLs : ∀ k k' : Fin 4096, idx_main_v1 (idx_main_v2 (idx_main_v3 (idx_main_v6 (lidx_main_v8 i k))) k')
      = ix3 (n0 := 32) (n1 := 256) (n2 := 4096) (i 0) (i 1) k' :=
    fun k k' => funext fun a => Fin.ext (by match a with | ⟨0, _⟩ => rfl | ⟨1, _⟩ => rfl | ⟨2, _⟩ => rfl)
  have eRs : ∀ k k' : Fin 4096, idx_main_v1 (idx_main_v2 (idx_main_v3 (idx_main_v6 (ridx_main_v8 i k))) k')
      = ix3 (n0 := 32) (n1 := 256) (n2 := 4096) (i 0) (i 2) k' :=
    fun k k' => funext fun a => Fin.ext (by match a with | ⟨0, _⟩ => rfl | ⟨1, _⟩ => rfl | ⟨2, _⟩ => rfl)
  rw [val_main_v10_apply, val_main_v9_apply, val_main_cst_1_apply, val_main_v8_apply]
  simp only [val_main_v7_apply, val_main_v6_apply, val_main_v5_apply, val_main_v3_apply, val_main_v4_apply,
    val_main_cst_0_apply, val_main_v2_apply, val_main_cst_apply, val_main_v1_apply, eL, eR, eLs, eRs,
    Ideal.hostDivf_def, Ideal.subf_def, Ideal.ofBits_def, Ideal.ofBits_zero_f32, zero_add]
  rfl

end Cert.ReferenceIdeal.RefValue

end
-- ==== Proof.lean ====
/-
  Channel covariance pooling: the Pallas kernel against its jnp reference, over the extended reals.

  The input `x : f32[32, 256, 64, 64]` is read as 32 batches of 256 channels, each a row of 64·64 = 4096 positions
  (the reshape to `[32, 256, 4096]`, which both programs do first). Both programs compute, for batch `b` and channels
  `d, e`,

      cov[b, d, e] = ( Σ_n (x[b, d, n] - mean[b, d]) · (x[b, e, n] - mean[b, e]) ) / 4095,
      mean[b, d]   = ( Σ_k x[b, d, k] ) / 4096.

  The kernel does it on blocks of 4 batches, keeping the `[batch, channel, position]` layout: a lane sum, a division
  by 4096, a subtraction, a batched matrix product contracting the positions, a division by 4095. The reference swaps
  the last two axes first and contracts the middle axis. Read index by index the two are the same sums of the same
  terms (`Cov.covArr`, Proof/CovSpec.lean): no distributivity or cancellation is used, so the finiteness of the input
  is never needed; the two divisors are the same float words on both sides and are never evaluated.

  Proof/BlockValue.lean reads the kernel body's stored value at an index, Proof/ArrValue.lean carries it from the
  blocks to the whole result array, Proof/RefValue.lean reads the reference's result at an index. The idealization
  rewrote nothing, so the kernel and its idealization are the same text and that conjunct is trivial.
-/
import proofs.«134029_j25031069401649_1_alg».proof.Defs
import proofs.«134029_j25031069401649_1_alg».proof.Proof.Gen.Kernel
import proofs.«134029_j25031069401649_1_alg».proof.Proof.Gen.Kernel.Skeleton
import proofs.«134029_j25031069401649_1_alg».proof.Proof.Gen.Kernel.Launch
import proofs.«134029_j25031069401649_1_alg».proof.Proof.Gen.Kernel.Points
import proofs.«134029_j25031069401649_1_alg».proof.Proof.Gen.Kernel.Frame
import proofs.«134029_j25031069401649_1_alg».proof.Proof.Gen.KernelIdeal
import proofs.«134029_j25031069401649_1_alg».proof.Proof.Gen.KernelIdeal.Skeleton
import proofs.«134029_j25031069401649_1_alg».proof.Proof.Gen.KernelIdeal.Launch
import proofs.«134029_j25031069401649_1_alg».proof.Proof.Gen.KernelIdeal.Points
import proofs.«134029_j25031069401649_1_alg».proof.Proof.Gen.KernelIdeal.Frame
import proofs.«134029_j25031069401649_1_alg».proof.Proof.Gen.ReferenceIdeal
import proofs.«134029_j25031069401649_1_alg».proof.Proof.Gen.Pre_finite_inputs
import proofs.«134029_j25031069401649_1_alg».proof.Proof.Gen.KernelIdeal.Value
import proofs.«134029_j25031069401649_1_alg».proof.Proof.Gen.ReferenceIdeal.Run
import proofs.«134029_j25031069401649_1_alg».proof.Proof.Gen.ReferenceIdeal.Read
import proofs.«134029_j25031069401649_1_alg».proof.Proof.ArrValue
import proofs.«134029_j25031069401649_1_alg».proof.Proof.RefValue
import Idealize.ShloMosaic.Adequacy
import Idealize.ShloMosaic.Init

noncomputable section

namespace Cert.Proof

open Idealize.ShloMosaic Idealize.ShloMosaic.TcCoe Idealize.SL.Sem

/-- The kernel at the word level runs and leaves its argument as it was. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both result arrays end at the covariance array of the reshaped argument: the kernel's by the blocks' cover, the
    reference's by reading its operations at an index; the arguments agree by hypothesis. -/
theorem algebraic : Cert.algebraic_KernelIdeal_ReferenceIdeal := by
  intro m ρ m' ρ' _ hagree
  refine ⟨_, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq, hagree c]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
